-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S10000x64 : Shape := ⟨2, ![10000, 64]⟩
abbrev S1300000x64 : Shape := ⟨2, ![1300000, 64]⟩
abbrev S1x64 : Shape := ⟨2, ![1, 64]⟩

abbrev nBuf : Space → Nat
  | .hbm => 100
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S1x1200000, .i32⟩
  | .hbm, ⟨13, _⟩ => ⟨S1200000, .i32⟩
  | .hbm, ⟨14, _⟩ => ⟨S1300000, .i32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S1300000, .i32⟩
  | .hbm, ⟨19, _⟩ => ⟨S1300000, .i1⟩
  | .hbm, ⟨20, _⟩ => ⟨S_, .i32⟩
  | .hbm, ⟨21, _⟩ => ⟨S1300000, .i32⟩
  | .hbm, ⟨22, _⟩ => ⟨S1300000, .i32⟩
  | .hbm, ⟨23, _⟩ => ⟨S1300000, .i32⟩
  | .hbm, ⟨24, _⟩ => ⟨S1300000x1, .i32⟩
  | .hbm, ⟨25, _⟩ => ⟨S_, .f32⟩
  | .hbm, ⟨26, _⟩ => ⟨S1300000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1300000, .i32⟩
  | .hbm, ⟨38, _⟩ => ⟨S1300000, .i1⟩
  | .hbm, ⟨39, _⟩ => ⟨S_, .i32⟩
  | .hbm, ⟨40, _⟩ => ⟨S1300000, .i32⟩
  | .hbm, ⟨41, _⟩ => ⟨S1300000, .i32⟩
  | .hbm, ⟨42, _⟩ => ⟨S1300000, .i32⟩
  | .hbm, ⟨43, _⟩ => ⟨S1300000x1, .i32⟩
  | .hbm, ⟨44, _⟩ => ⟨S1300000, .f32⟩
  | .hbm, ⟨45, _⟩ => ⟨S_, .i32⟩
  | .hbm, ⟨46, _⟩ => ⟨S1300000, .i32⟩
  | .hbm, ⟨47, _⟩ => ⟨S1300000, .i1⟩
  | .hbm, ⟨48, _⟩ => ⟨S_, .i32⟩
  | .hbm, ⟨49, _⟩ => ⟨S1300000, .i32⟩
  | .hbm, ⟨50, _⟩ => ⟨S1300000, .i32⟩
  | .hbm, ⟨51, _⟩ => ⟨S1300000, .i32⟩
  | .hbm, ⟨52, _⟩ => ⟨S1300000x1, .i32⟩
  | .hbm, ⟨53, _⟩ => ⟨S1300000, .f32⟩
  | .hbm, ⟨54, _⟩ => ⟨S1300000, .f32⟩
  | .hbm, ⟨55, _⟩ => ⟨S100000x64, .f32⟩
  | .hbm, ⟨56, _⟩ => ⟨S_, .i32⟩
  | .hbm, ⟨57, _⟩ => ⟨S1300000, .i32⟩
  | .hbm, ⟨58, _⟩ => ⟨S1300000, .i1⟩
  | .hbm, ⟨59, _⟩ => ⟨S_, .i32⟩
  | .hbm, ⟨60, _⟩ => ⟨S1300000, .i32⟩
  | .hbm, ⟨61, _⟩ => ⟨S1300000, .i32⟩
  | .hbm, ⟨62, _⟩ => ⟨S1300000, .i32⟩
  | .hbm, ⟨63, _⟩ => ⟨S1300000x1, .i32⟩
  | .hbm, ⟨64, _⟩ => ⟨S1300000x64, .f32⟩
  | .hbm, ⟨65, _⟩ => ⟨S1300000x1, .f32⟩
  | .hbm, ⟨66, _⟩ => ⟨S1300000x64, .f32⟩
  | .hbm, ⟨67, _⟩ => ⟨S1300000x64, .f32⟩
  | .hbm, ⟨68, _⟩ => ⟨S_, .f32⟩
  | .hbm, ⟨69, _⟩ => ⟨S100000x64, .f32⟩
  | .hbm, ⟨70, _⟩ => ⟨S1300000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S_, .i32⟩
  | .hbm, ⟨80, _⟩ => ⟨S1300000, .i32⟩
  | .hbm, ⟨81, _⟩ => ⟨S1300000, .i1⟩
  | .hbm, ⟨82, _⟩ => ⟨S_, .i32⟩
  | .hbm, ⟨83, _⟩ => ⟨S1300000, .i32⟩
  | .hbm, ⟨84, _⟩ => ⟨S1300000, .i32⟩
  | .hbm, ⟨85, _⟩ => ⟨S1300000, .i32⟩
  | .hbm, ⟨86, _⟩ => ⟨S1300000x1, .i32⟩
  | .hbm, ⟨87, _⟩ => ⟨S1300000x64, .f32⟩
  | .hbm, ⟨88, _⟩ => ⟨S1300000x1, .f32⟩
  | .hbm, ⟨89, _⟩ => ⟨S1300000x64, .f32⟩
  | .hbm, ⟨90, _⟩ => ⟨S1300000x64, .f32⟩
  | .hbm, ⟨91, _⟩ => ⟨S_, .f32⟩
  | .hbm, ⟨92, _⟩ => ⟨S100000x64, .f32⟩
  | .hbm, ⟨93, _⟩ => ⟨S1300000x1, .i32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S1x64, .f32⟩
  | .hbm, ⟨99, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S100000 : S_.BroadcastsInDim S100000 (![] : Fin 0 → Fin S100000.rank)
  bcast_S_S1300000 : S_.BroadcastsInDim S1300000 (![] : Fin 0 → Fin S1300000.rank)
  bcast_S1300000_S1300000x1_0 : S1300000.BroadcastsInDim S1300000x1 (![0] : Fin 1 → Fin S1300000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S10000x64_S64x64_S10000x64_1_0_0_1_n_n_wf : DotDims.WF S10000x64 S64x64 S10000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v69) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 142
  | .vmem => 0
  | .smem => 0
  | _ => 0

abbrev hbmTy0_0 (i : Nat) : BufTy := match i % 128 with
  | 0 => ⟨S100000x64, .f32⟩
  | 1 => ⟨S2x1200000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S100000, .i32⟩
  | 9 => ⟨S1x1200000, .i32⟩
  | 10 => ⟨S1200000, .i32⟩
  | 11 => ⟨S1300000, .i32⟩
  | 12 => ⟨S1x1200000, .i32⟩
  | 13 => ⟨S1200000, .i32⟩
  | 14 => ⟨S1300000, .i32⟩
  | 15 => ⟨S100000x64, .f32⟩
  | 16 => ⟨S_, .f32⟩
  | 17 => ⟨S100000, .f32⟩
  | 18 => ⟨S_, .i32⟩
  | 19 => ⟨S1300000, .i32⟩
  | 20 => ⟨S1300000, .i1⟩
  | 21 => ⟨S_, .i32⟩
  | 22 => ⟨S1300000, .i32⟩
  | 23 => ⟨S1300000, .i32⟩
  | 24 => ⟨S1300000, .i32⟩
  | 25 => ⟨S1300000x1, .i32⟩
  | 26 => ⟨S_, .f32⟩
  | 27 => ⟨S1300000, .f32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1300000, .i32⟩
  | 39 => ⟨S1300000, .i1⟩
  | 40 => ⟨S_, .i32⟩
  | 41 => ⟨S1300000, .i32⟩
  | 42 => ⟨S1300000, .i32⟩
  | 43 => ⟨S1300000, .i32⟩
  | 44 => ⟨S1300000x1, .i32⟩
  | 45 => ⟨S1300000, .f32⟩
  | 46 => ⟨S_, .i32⟩
  | 47 => ⟨S1300000, .i32⟩
  | 48 => ⟨S1300000, .i1⟩
  | 49 => ⟨S_, .i32⟩
  | 50 => ⟨S1300000, .i32⟩
  | 51 => ⟨S1300000, .i32⟩
  | 52 => ⟨S1300000, .i32⟩
  | 53 => ⟨S1300000x1, .i32⟩
  | 54 => ⟨S1300000, .f32⟩
  | 55 => ⟨S1300000, .f32⟩
  | 56 => ⟨S_, .i32⟩
  | 57 => ⟨S1300000, .i32⟩
  | 58 => ⟨S1300000, .i1⟩
  | 59 => ⟨S_, .i32⟩
  | 60 => ⟨S1300000, .i32⟩
  | 61 => ⟨S1300000, .i32⟩
  | 62 => ⟨S1300000, .i32⟩
  | 63 => ⟨S1300000x1, .i32⟩
  | 64 => ⟨S1300000x64, .f32⟩
  | 65 => ⟨S1300000x1, .f32⟩
  | 66 => ⟨S1300000x64, .f32⟩
  | 67 => ⟨S1300000x64, .f32⟩
  | 68 => ⟨S_, .f32⟩
  | 69 => ⟨S100000x64, .f32⟩
  | 70 => ⟨S1300000x1, .i32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S_, .f32⟩
  | 80 => ⟨S100000, .f32⟩
  | 81 => ⟨S_, .i32⟩
  | 82 => ⟨S1300000, .i32⟩
  | 83 => ⟨S1300000, .i1⟩
  | 84 => ⟨S_, .i32⟩
  | 85 => ⟨S1300000, .i32⟩
  | 86 => ⟨S1300000, .i32⟩
  | 87 => ⟨S1300000, .i32⟩
  | 88 => ⟨S1300000x1, .i32⟩
  | 89 => ⟨S_, .f32⟩
  | 90 => ⟨S1300000, .f32⟩
  | 91 => ⟨S100000, .f32⟩
  | 92 => ⟨S_, .f32⟩
  | 93 => ⟨S100000, .f32⟩
  | 94 => ⟨S100000, .i1⟩
  | 95 => ⟨S100000, .f32⟩
  | 96 => ⟨S_, .f32⟩
  | 97 => ⟨S_, .f32⟩
  | 98 => ⟨S100000, .f32⟩
  | 99 => ⟨S100000, .f32⟩
  | 100 => ⟨S_, .i32⟩
  | 101 => ⟨S1300000, .i32⟩
  | 102 => ⟨S1300000, .i1⟩
  | 103 => ⟨S_, .i32⟩
  | 104 => ⟨S1300000, .i32⟩
  | 105 => ⟨S1300000, .i32⟩
  | 106 => ⟨S1300000, .i32⟩
  | 107 => ⟨S1300000x1, .i32⟩
  | 108 => ⟨S1300000, .f32⟩
  | 109 => ⟨S_, .i32⟩
  | 110 => ⟨S1300000, .i32⟩
  | 111 => ⟨S1300000, .i1⟩
  | 112 => ⟨S_, .i32⟩
  | 113 => ⟨S1300000, .i32⟩
  | 114 => ⟨S1300000, .i32⟩
  | 115 => ⟨S1300000, .i32⟩
  | 116 => ⟨S1300000x1, .i32⟩
  | 117 => ⟨S1300000, .f32⟩
  | 118 => ⟨S1300000, .f32⟩
  | 119 => ⟨S_, .i32⟩
  | 120 => ⟨S1300000, .i32⟩
  | 121 => ⟨S1300000, .i1⟩
  | 122 => ⟨S_, .i32⟩
  | 123 => ⟨S1300000, .i32⟩
  | 124 => ⟨S1300000, .i32⟩
  | 125 => ⟨S1300000, .i32⟩
  | 126 => ⟨S1300000x1, .i32⟩
  | 127 => ⟨S1300000x64, .f32⟩
  | _ => ⟨S100000x64, .f32⟩

abbrev hbmTy0_1 (i : Nat) : BufTy := match i % 128 with
  | 0 => ⟨S1300000x1, .f32⟩
  | 1 => ⟨S1300000x64, .f32⟩
  | 2 => ⟨S1300000x64, .f32⟩
  | 3 => ⟨S_, .f32⟩
  | 4 => ⟨S100000x64, .f32⟩
  | 5 => ⟨S1300000x1, .i32⟩
  | 6 => ⟨S100000x64, .f32⟩
  | 7 => ⟨S1x64, .f32⟩
  | 8 => ⟨S100000x64, .f32⟩
  | 9 => ⟨S100000x64, .f32⟩
  | 10 => ⟨S100000x64, .f32⟩
  | 11 => ⟨S1x64, .f32⟩
  | 12 => ⟨S100000x64, .f32⟩
  | 13 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_c_12 : Ref sig .tc := ⟨.hbm, 81, rfl⟩
abbrev main_v55 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_cst_15 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_16 : Ref sig .tc := ⟨.hbm, 96, rfl⟩
abbrev main_call2_v0 : Ref sig .tc := ⟨.hbm, 97, rfl⟩
abbrev main_call2_v1 : Ref sig .tc := ⟨.hbm, 98, rfl⟩
abbrev main_v66 : Ref sig .tc := ⟨.hbm, 99, rfl⟩
abbrev main_c_17 : Ref sig .tc := ⟨.hbm, 100, rfl⟩
abbrev main_v67 : Ref sig .tc := ⟨.hbm, 101, rfl⟩
abbrev main_v68 : Ref sig .tc := ⟨.hbm, 102, rfl⟩
abbrev main_c_18 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_19 : Ref sig .tc := ⟨.hbm, 109, rfl⟩
abbrev main_v74 : Ref sig .tc := ⟨.hbm, 110, rfl⟩
abbrev main_v75 : Ref sig .tc := ⟨.hbm, 111, rfl⟩
abbrev main_c_20 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_21 : Ref sig .tc := ⟨.hbm, 119, rfl⟩
abbrev main_v82 : Ref sig .tc := ⟨.hbm, 120, rfl⟩
abbrev main_v83 : Ref sig .tc := ⟨.hbm, 121, rfl⟩
abbrev main_c_22 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_23 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S100000 : S_.BroadcastsInDim S100000 (![] : Fin 0 → Fin S100000.rank)
  bcast_S_S1300000 : S_.BroadcastsInDim S1300000 (![] : Fin 0 → Fin S1300000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.GraphNet.lean ====
/-
  The network both programs compute, as one function of the eight arguments.

  A graph of 100000 nodes is given by 1200000 directed edges (row 0 of the edge array the sources, row 1 the
  targets); every node also gets a loop to itself, 1300000 edges in all.  The degree of a node counts the edges that
  end in it, d⁻¹ᐟ² is its inverse square root (0 where the degree is not positive), and an edge s → t weighs
  d⁻¹ᐟ²(s) · d⁻¹ᐟ²(t).  One layer multiplies the node features by a 64×64 matrix, sends along every edge the source's
  row times the edge's weight, adds up at every node what arrives there, and adds a bias.  The network is two such
  layers with the positive part taken between them, then one more product with a 64×64 matrix, plus a bias.

  Each function below is spelt with the reference program's own operations, in its order, so that the reference's
  result is this network of its arguments by unfolding alone; what the tiled kernel adds is only another way of
  forming the three products.
-/
import proofs.«161678_j87660282511747_1_alg».proof.Proof.Gen.ReferenceIdeal

noncomputable section

namespace Cert.ReferenceIdeal.Net

open Cert.ReferenceIdeal Cert.ReferenceIdeal.Gen Idealize.ShloMosaic

variable {F : FTy → Type} [FloatOps F]

/-- The edges' sources: row 0 of the edge array, then the loops' 0, 1, …, 99999. -/
def sources (ei : IVec S2x1200000 32) : IVec S1300000 32 :=
  concatenate S1300000 0 [⟨S1200000, (shapeCast S1200000 (extractStridedSlice S1x1200000 ![0, 0] ei slices_S2x1200000_S1x1200000_0_0) shapeCasts_S1x1200000_S1200000)⟩, ⟨S100000, (iotaInDim S100000 32 0)⟩] concatenates_S1200000_S100000_S1300000_d0

/-- The edges' targets: row 1 of the edge array, then the loops' 0, 1, …, 99999. -/
def targets (ei : IVec S2x1200000 32) : IVec S1300000 32 :=
  concatenate S1300000 0 [⟨S1200000, (shapeCast S1200000 (extractStridedSlice S1x1200000 ![1, 0] ei slices_S2x1200000_S1x1200000_1_0) shapeCasts_S1x1200000_S1200000)⟩, ⟨S100000, (iotaInDim S100000 32 0)⟩] concatenates_S1200000_S100000_S1300000_d0

/-- A node number counted from the end when negative: v + 100000 where v < 0, else v. -/
def fromEnd (v : IVec S1300000 32) : IVec S1300000 32 :=
  select (cmpi .slt v (broadcastInDim S1300000 ![] bcast_S_S1300000 (constantI S_ 32 0#32))) (addi v (broadcastInDim S1300000 ![] bcast_S_S1300000 (constantI S_ 32 100000#32))) v

/-- A list over the edges as a one-column table. -/
def column {α : Type} (v : S1300000.Idx → α) : S1300000x1.Idx → α :=
  broadcastInDim S1300000x1 ![0] bcast_S1300000_S1300000x1_0 v

/-- The number of edges ending in each node (a sum of ones). -/
def degree (ei : IVec S2x1200000 32) : FVec F S100000 .f32 :=
  Host.scatterAdd scatter_S100000_S1300000x1_S1300000_n_0_0_1 (broadcastInDim S100000 ![] bcast_S_S100000 (constant (F := F) S_ .f32 0x00000000#32)) (column (fromEnd (targets ei))) (broadcastInDim S1300000 ![] bcast_S_S1300000 (constant (F := F) S_ .f32 0x3F800000#32))

/-- d⁻¹ᐟ² where the degree is positive, 0 elsewhere. -/
def invSqrtDegree (ei : IVec S2x1200000 32) : FVec F S100000 .f32 :=
  select (cmpf .ogt (degree (F := F) ei) (broadcastInDim S100000 ![] bcast_S_S100000 (constant (F := F) S_ .f32 0x00000000#32))) (Host.rsqrt (degree (F := F) ei)) (broadcastInDim S100000 ![] bcast_S_S100000 (id (constant (F := F) S_ .f32 0x00000000#32)))

/-- The weight of each edge: d⁻¹ᐟ² at its source times d⁻¹ᐟ² at its target. -/
def edgeWeight (ei : IVec S2x1200000 32) : FVec F S1300000 .f32 :=
  mulf (Host.gather gather_S100000_S1300000x1_S1300000_n_0_n_n_0_1_1 (invSqrtDegree (F := F) ei) (column (fromEnd (sources ei)))) (Host.gather gather_S100000_S1300000x1_S1300000_n_0_n_n_0_1_1 (invSqrtDegree (F := F) ei) (column (fromEnd (targets ei))))

/-- The zero table of node features. -/
def noFeatures : FVec F S100000x64 .f32 :=
  broadcastInDim S100000x64 ![] bcast_S_S100000x64 (constant (F := F) S_ .f32 0x00000000#32)

/-- A bias of 64 numbers added to every node's row. -/
def everyRow (b : FVec F S64 .f32) : FVec F S100000x64 .f32 :=
  broadcastInDim S100000x64 ![0, 1] bcast_S1x64_S100000x64_0_1 (broadcastInDim S1x64 ![1] bcast_S64_S1x64_1 b)

/-- Sending and adding up: along every edge the source's row of `h` times the edge's weight `wt`, summed at the
    edge's target, plus the bias. The sources `src`, targets `tgt` and weights are lists over the edges. -/
def gatherScatter (h : FVec F S100000x64 .f32) (src tgt : IVec S1300000 32) (wt : FVec F S1300000 .f32) (b : FVec F S64 .f32) :
    FVec F S100000x64 .f32 :=
  addf (Host.scatterAdd scatter_S100000x64_S1300000x1_S1300000x64_1_0_0_1 (noFeatures (F := F)) (column tgt) (mulf (Host.gather gather_S100000x64_S1300000x1_S1300000x64_1_0_n_n_0_1_164 h (column (fromEnd src))) (broadcastInDim S1300000x64 ![0, 1] bcast_S1300000x1_S1300000x64_0_1 (column wt)))) (everyRow b)

/-- The same over the graph an edge array gives. -/
def aggregate (h : FVec F S100000x64 .f32) (ei : IVec S2x1200000 32) (b : FVec F S64 .f32) : FVec F S100000x64 .f32 :=
  gatherScatter h (sources ei) (targets ei) (edgeWeight (F := F) ei) b

/-- The positive part, entry by entry. -/
def positivePart (h : FVec F S100000x64 .f32) : FVec F S100000x64 .f32 :=
  maximumf h (noFeatures (F := F))

/-- Node features times a 64×64 matrix. -/
def product (x : FVec F S100000x64 .f32) (w : FVec F S64x64 .f32) : FVec F S100000x64 .f32 :=
  Host.dotGeneral dot_S100000x64_S64x64_S100000x64_1_0_0_1_n_n none x w

/-- The last product with its bias. -/
def readout (h : FVec F S100000x64 .f32) (w : FVec F S64x64 .f32) (b : FVec F S64 .f32) : FVec F S100000x64 .f32 :=
  addf (product h w) (everyRow b)

/-- THE NETWORK: two layers, the positive part between them, and the readout. -/
def network (x : FVec F S100000x64 .f32) (ei : IVec S2x1200000 32) (w1 : FVec F S64x64 .f32) (b1 : FVec F S64 .f32)
    (w2 : FVec F S64x64 .f32) (b2 : FVec F S64 .f32) (wl : FVec F S64x64 .f32) (bl : FVec F S64 .f32) : FVec F S100000x64 .f32 :=
  readout (aggregate (product (positivePart (aggregate (product x w1) ei b1)) w2) ei b2) wl bl

end Cert.ReferenceIdeal.Net

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.RowBlockProduct.lean ====
/-
  A row block of a matrix product.

  Cut the M rows of an M×K matrix X into blocks of B rows.  The product of one block with a K×N matrix W is the
  matching block of rows of X·W: entry (p, q) of the block's product and entry (P, q) of the whole product, where P
  is the row of X that the block's row p is, are the same sum  ∑ i, X (P, i) · W (i, q).  On the extended reals a
  change of float format is the identity, so narrowing the two operands before the block's product changes nothing,
  and the block's product accumulates into zero, so nothing is added to the sum.
-/
import proofs.«161678_j87660282511747_1_alg».proof.Proof.LibPlainDot

noncomputable section

open scoped BigOperators

namespace RowBlockProduct

open Idealize.ShloMosaic Idealize.ShloMosaic.ValueIdx

variable {M B K N : Nat}

/-- Entry (p, q) of a row block's product — both operands narrowed first, the accumulator zero — is entry (P, q) of
    the whole product, when the block's row p is row P of the whole left operand and the right operands agree. -/
theorem entry {dB : DotDims ⟨2, ![B, K]⟩ ⟨2, ![K, N]⟩ ⟨2, ![B, N]⟩} (hB : PlainDot.IsPlain dB)
    {dW : DotDims ⟨2, ![M, K]⟩ ⟨2, ![K, N]⟩ ⟨2, ![M, N]⟩} (hW : PlainDot.IsPlain dW)
    (precB precW : Option ContractPrecision)
    (xb : FVec Ideal ⟨2, ![B, K]⟩ .f32) (wb : FVec Ideal ⟨2, ![K, N]⟩ .f32)
    (X : FVec Ideal ⟨2, ![M, K]⟩ .f32) (W : FVec Ideal ⟨2, ![K, N]⟩ .f32)
    (h1 : FTy.bf16.bits < FTy.f32.bits) (h2 : FTy.bf16.bits < FTy.f32.bits)
    (p : Fin B) (P : Fin M) (q : Fin N)
    (hx : ∀ i : Fin K, xb (ix2 p i) = X (ix2 P i)) (hw : ∀ i : Fin K, wb (ix2 i q) = W (ix2 i q)) :
    matmul dB precB (truncf .bf16 xb h1) (truncf .bf16 wb h2) (constant ⟨2, ![B, N]⟩ .f32 0x00000000#32) (ix2 p q)
      = Host.dotGeneral dW precW X W (ix2 P q) := by
  rw [PlainDot.matmul_zero_apply hB]
  simp only [Host.dotGeneral]
  rw [PlainDot.dotGeneral_apply hW]
  refine Finset.sum_congr rfl fun i _ => ?_
  show xb (ix2 p i) * wb (ix2 i q) = _
  rw [hx i, hw i]

end RowBlockProduct

end
-- ==== Proof.Tiles0.lean ====
/-
  The first tiled product: the node features times the first layer's matrix.

  The grid has ten points.  Point t is handed rows 10000·t … 10000·t + 9999 of the left operand (all 64 columns),
  the whole 64×64 right operand, and writes back rows 10000·t … 10000·t + 9999 of the result.  What it writes is
  the block's product, which entry by entry is the same sum over the 64 columns as the whole product's entry
  in that row.  The ten blocks tile the 100000 rows (row r lies in block r / 10000), so after the last
  point the result array is the whole product.
-/
import proofs.«161678_j87660282511747_1_alg».proof.Proof.Gen.KernelIdeal.Frame
import proofs.«161678_j87660282511747_1_alg».proof.Proof.RowBlockProduct
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Tiles0

open Cert.KernelIdeal Cert.KernelIdeal.Gen

-- the region's entry contents: any
variable (V : (c : Dev nD) → (b : Ref sig .tc) → Buf (Elt Ideal) ((c : Thread nD τ).loc b))
-- the whole product's dimension numbers: any record that contracts axis 1 of the left with axis 0 of the right
variable {dW : DotDims S100000x64 S64x64 S100000x64}

theorem zeroOffsets : (![0, 0] : Fin 2 → Nat) = fun _ => 0 := funext fun a => by fin_cases a <;> rfl

/-- The block's product has the plain dimension numbers. -/
theorem blockPlain : PlainDot.IsPlain dot_S10000x64_S64x64_S10000x64_1_0_0_1_n_n := ⟨rfl, rfl, rfl, rfl, rfl, rfl⟩

/-- What a point stores, entry by entry: the whole product's entry in the row the block's row is. -/
theorem stored_entry (hW : PlainDot.IsPlain dW) (xb : FVec Ideal S10000x64 .f32) (wb : FVec Ideal S64x64 .f32)
    (X : FVec Ideal S100000x64 .f32) (W : FVec Ideal S64x64 .f32) (t : Nat)
    (hx : ∀ (p : Fin 10000) (i : Fin 64) (P : Fin 100000), P.val = t * 10000 + p.val → xb (ix2 p i) = X (ix2 P i))
    (hw : ∀ (i : Fin 64) (q : Fin 64), wb (ix2 i q) = W (ix2 i q))
    (j : S10000x64.Idx) (J : S100000x64.Idx) (hJ0 : (J 0).val = t * 10000 + (j 0).val) (hJ1 : (J 1).val = (j 1).val) :
    k0_pay1 xb wb j = Host.dotGeneral (F := Ideal) dW none X W J := by
  obtain ⟨p, q, rfl⟩ : ∃ (p : Fin 10000) (q : Fin 64), j = ix2 p q := ⟨j 0, j 1, eq_ix2 j⟩
  obtain ⟨P, Q, rfl⟩ : ∃ (P : Fin 100000) (Q : Fin 64), J = ix2 P Q := ⟨J 0, J 1, eq_ix2 J⟩
  obtain rfl : Q = q := Fin.ext hJ1
  exact RowBlockProduct.entry blockPlain hW none none xb wb X W _ _ p P Q (fun i => hx p i P hJ0) (fun i => hw i Q)

/-- The printed index maps over the grid: the row blocks move with the point, the right operand stays. -/
theorem indexMaps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 10000·t … of the array the region finds. -/
theorem leftBlock (c : Dev nD) (t : Fin cfg0.N) (p : Fin 10000) (i : Fin 64) (P : Fin 100000) (hP : P.val = t.val * 10000 + p.val) :
    (iblk0 V c 0 t : FVec Ideal S10000x64 .f32) (ix2 p i) = (V c main_arg0 : FVec Ideal S100000x64 .f32) (ix2 P i) := by
  obtain ⟨e0, e1, -⟩ := indexMaps t
  unfold iblk0
  rw [View.read_apply]
  show V c main_arg0 _ = V c main_arg0 _
  congr 1
  funext a
  apply Fin.ext
  match a with
  | ⟨0, _⟩ => show win0_0.index t 0 * 10000 + 1 * (p : Nat) = (P : Nat); rw [e0, hP]; omega
  | ⟨1, _⟩ => show win0_0.index t 1 * 64 + 1 * (i : Nat) = (i : Nat); rw [e1]; omega

/-- The right operand's block at every point is the whole array. -/
theorem rightBlock (c : Dev nD) (t : Fin cfg0.N) (i : Fin 64) (q : Fin 64) :
    (iblk0 V c 1 t : FVec Ideal S64x64 .f32) (ix2 i q) = (V c main_arg2 : FVec Ideal S64x64 .f32) (ix2 i q) := by
  obtain ⟨-, -, e0, e1, -⟩ := indexMaps t
  unfold iblk0
  rw [View.read_apply]
  show V c main_arg2 _ = V c main_arg2 _
  congr 1
  funext a
  apply Fin.ext
  match a with
  | ⟨0, _⟩ => show win0_1.index t 0 * 64 + 1 * (i : Nat) = (i : Nat); rw [e0]; omega
  | ⟨1, _⟩ => show win0_1.index t 1 * 64 + 1 * (q : Nat) = (q : Nat); rw [e1]; omega

/-- WHAT POINT t WRITES BACK is block t of the whole product of the arrays the region finds. -/
theorem flushed (hW : PlainDot.IsPlain dW) (c : Dev nD) (t : Fin cfg0.N) :
    (dat0 V c).flushed 2 t = ((cfg0.win 2).blk t).view.read (Elt Ideal) (Host.dotGeneral (F := Ideal) (φ₁ := .f32) (φ₂ := .f32) dW none (V c main_arg0) (V c main_arg2)) := by
  show (cfg0.win 2).cut (grid0.coords t) ((dat0 V c).after 2 t) = _
  rw [after0_2]
  unfold out0_2
  rw [View.canon_unit_zero zeroOffsets]
  simp only [View.ld_unit_zero (S := S10000x64) zeroOffsets, View.ld_unit_zero (S := S64x64) zeroOffsets]
  obtain ⟨-, -, -, -, e0, e1⟩ := indexMaps t
  funext j
  refine stored_entry hW (iblk0 V c 0 t) (iblk0 V c 1 t) (V c main_arg0) (V c main_arg2) t.val
    (fun p i P hP => leftBlock V c t p i P hP) (fun i q => rightBlock V c t i q) j (((cfg0.win 2).blk t).view.emb j) ?_ ?_
  · show win0_2.index t 0 * 10000 + 1 * (j 0).val = t.val * 10000 + (j 0).val; rw [e0]; omega
  · show win0_2.index t 1 * 64 + 1 * (j 1).val = (j 1).val; rw [e1]; omega

/-- An index of the result array is in point t's block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v35).slice (win0_2.rect t)).set ↔ _
  rw [View.set_slice_whole, Rect.mem_set_unit]
  exact Iff.rfl

/-- Every row lies in the block of the point numbered by the row's ten-thousands. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, e0, e1⟩ := indexMaps t
  refine ⟨t, flush0_2 t, ?_⟩
  rw [mem_block]
  intro a
  match a with
  | ⟨0, _⟩ => show win0_2.index t 0 * 10000 ≤ (i 0).val ∧ (i 0).val < win0_2.index t 0 * 10000 + 10000; rw [e0]; show (i 0).val / 10000 * 10000 ≤ (i 0).val ∧ (i 0).val < (i 0).val / 10000 * 10000 + 10000; omega
  | ⟨1, _⟩ => show win0_2.index t 1 * 64 ≤ (i 1).val ∧ (i 1).val < win0_2.index t 1 * 64 + 64; rw [e1]; omega

/-- THE RESULT ARRAY after the region: the whole product of the arrays the region finds. -/
theorem result (hW : PlainDot.IsPlain dW) (c : Dev nD) :
    (dat0 V c).arrAt 2 cfg0.N = Host.dotGeneral (F := Ideal) (φ₁ := .f32) (φ₂ := .f32) dW none (V c main_arg0) (V c main_arg2) :=
  (dat0 V c).arrAt_eq_of_cover 2 _ (fun t _ => flushed V hW c t) covered

end Cert.KernelIdeal.Tiles0

end
-- ==== Proof.Tiles1.lean ====
/-
  The second tiled product: the first layer's output (its positive part) times the second layer's matrix.

  The grid has ten points.  Point t is handed rows 10000·t … 10000·t + 9999 of the left operand (all 64 columns),
  the whole 64×64 right operand, and writes back rows 10000·t … 10000·t + 9999 of the result.  What it writes is
  the block's product (the block first cast to its own shape, which changes nothing), entry by entry the same sum
  over the 64 columns as the whole product's entry in that row.  The ten blocks tile the 100000 rows (row r lies in
  block r / 10000), so after the last point the result array is the whole product.
-/
import proofs.«161678_j87660282511747_1_alg».proof.Proof.Gen.KernelIdeal.Frame
import proofs.«161678_j87660282511747_1_alg».proof.Proof.RowBlockProduct
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Tiles1

open Cert.KernelIdeal Cert.KernelIdeal.Gen

-- the region's entry contents: any
variable (V : (c : Dev nD) → (b : Ref sig .tc) → Buf (Elt Ideal) ((c : Thread nD τ).loc b))
-- the whole product's dimension numbers: any record that contracts axis 1 of the left with axis 0 of the right
variable {dW : DotDims S100000x64 S64x64 S100000x64}

theorem zeroOffsets : (![0, 0] : Fin 2 → Nat) = fun _ => 0 := funext fun a => by fin_cases a <;> rfl

/-- The block's product has the plain dimension numbers. -/
theorem blockPlain : PlainDot.IsPlain dot_S10000x64_S64x64_S10000x64_1_0_0_1_n_n := ⟨rfl, rfl, rfl, rfl, rfl, rfl⟩

/-- What a point stores, entry by entry: the whole product's entry in the row the block's row is. -/
theorem stored_entry (hW : PlainDot.IsPlain dW) (xb : FVec Ideal S10000x64 .f32) (wb : FVec Ideal S64x64 .f32)
    (X : FVec Ideal S100000x64 .f32) (W : FVec Ideal S64x64 .f32) (t : Nat)
    (hx : ∀ (p : Fin 10000) (i : Fin 64) (P : Fin 100000), P.val = t * 10000 + p.val → xb (ix2 p i) = X (ix2 P i))
    (hw : ∀ (i : Fin 64) (q : Fin 64), wb (ix2 i q) = W (ix2 i q))
    (j : S10000x64.Idx) (J : S100000x64.Idx) (hJ0 : (J 0).val = t * 10000 + (j 0).val) (hJ1 : (J 1).val = (j 1).val) :
    k1_pay1 xb wb j = Host.dotGeneral (F := Ideal) dW none X W J := by
  obtain ⟨p, q, rfl⟩ : ∃ (p : Fin 10000) (q : Fin 64), j = ix2 p q := ⟨j 0, j 1, eq_ix2 j⟩
  obtain ⟨P, Q, rfl⟩ : ∃ (P : Fin 100000) (Q : Fin 64), J = ix2 P Q := ⟨J 0, J 1, eq_ix2 J⟩
  obtain rfl : Q = q := Fin.ext hJ1
  refine RowBlockProduct.entry blockPlain hW none none (shapeCast S10000x64 xb shapeCasts_S10000x64_S10000x64) wb X W _ _ p P Q
    (fun i => ?_) (fun i => hw i Q)
  rw [shapeCast_self]
  exact hx p i P hJ0

/-- The printed index maps over the grid: the row blocks move with the point, the right operand stays. -/
theorem indexMaps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 10000·t … of the array the region finds. -/
theorem leftBlock (c : Dev nD) (t : Fin cfg1.N) (p : Fin 10000) (i : Fin 64) (P : Fin 100000) (hP : P.val = t.val * 10000 + p.val) :
    (iblk1 V c 0 t : FVec Ideal S10000x64 .f32) (ix2 p i) = (V c main_v52 : FVec Ideal S100000x64 .f32) (ix2 P i) := by
  obtain ⟨e0, e1, -⟩ := indexMaps t
  unfold iblk1
  rw [View.read_apply]
  show V c main_v52 _ = V c main_v52 _
  congr 1
  funext a
  apply Fin.ext
  match a with
  | ⟨0, _⟩ => show win1_0.index t 0 * 10000 + 1 * (p : Nat) = (P : Nat); rw [e0, hP]; omega
  | ⟨1, _⟩ => show win1_0.index t 1 * 64 + 1 * (i : Nat) = (i : Nat); rw [e1]; omega

/-- The right operand's block at every point is the whole array. -/
theorem rightBlock (c : Dev nD) (t : Fin cfg1.N) (i : Fin 64) (q : Fin 64) :
    (iblk1 V c 1 t : FVec Ideal S64x64 .f32) (ix2 i q) = (V c main_arg4 : FVec Ideal S64x64 .f32) (ix2 i q) := by
  obtain ⟨-, -, e0, e1, -⟩ := indexMaps t
  unfold iblk1
  rw [View.read_apply]
  show V c main_arg4 _ = V c main_arg4 _
  congr 1
  funext a
  apply Fin.ext
  match a with
  | ⟨0, _⟩ => show win1_1.index t 0 * 64 + 1 * (i : Nat) = (i : Nat); rw [e0]; omega
  | ⟨1, _⟩ => show win1_1.index t 1 * 64 + 1 * (q : Nat) = (q : Nat); rw [e1]; omega

/-- WHAT POINT t WRITES BACK is block t of the whole product of the arrays the region finds. -/
theorem flushed (hW : PlainDot.IsPlain dW) (c : Dev nD) (t : Fin cfg1.N) :
    (dat1 V c).flushed 2 t = ((cfg1.win 2).blk t).view.read (Elt Ideal) (Host.dotGeneral (F := Ideal) (φ₁ := .f32) (φ₂ := .f32) dW none (V c main_v52) (V c main_arg4)) := by
  show (cfg1.win 2).cut (grid1.coords t) ((dat1 V c).after 2 t) = _
  rw [after1_2]
  unfold out1_2
  rw [View.canon_unit_zero zeroOffsets]
  simp only [View.ld_unit_zero (S := S10000x64) zeroOffsets, View.ld_unit_zero (S := S64x64) zeroOffsets]
  obtain ⟨-, -, -, -, e0, e1⟩ := indexMaps t
  funext j
  refine stored_entry hW (iblk1 V c 0 t) (iblk1 V c 1 t) (V c main_v52) (V c main_arg4) t.val
    (fun p i P hP => leftBlock V c t p i P hP) (fun i q => rightBlock V c t i q) j (((cfg1.win 2).blk t).view.emb j) ?_ ?_
  · show win1_2.index t 0 * 10000 + 1 * (j 0).val = t.val * 10000 + (j 0).val; rw [e0]; omega
  · show win1_2.index t 1 * 64 + 1 * (j 1).val = (j 1).val; rw [e1]; omega

/-- An index of the result array is in point t's block iff each coordinate is in the block's range on its axis. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v53).slice (win1_2.rect t)).set ↔ _
  rw [View.set_slice_whole, Rect.mem_set_unit]
  exact Iff.rfl

/-- Every row lies in the block of the point numbered by the row's ten-thousands. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨-, -, -, -, e0, e1⟩ := indexMaps t
  refine ⟨t, flush1_2 t, ?_⟩
  rw [mem_block]
  intro a
  match a with
  | ⟨0, _⟩ => show win1_2.index t 0 * 10000 ≤ (i 0).val ∧ (i 0).val < win1_2.index t 0 * 10000 + 10000; rw [e0]; show (i 0).val / 10000 * 10000 ≤ (i 0).val ∧ (i 0).val < (i 0).val / 10000 * 10000 + 10000; omega
  | ⟨1, _⟩ => show win1_2.index t 1 * 64 ≤ (i 1).val ∧ (i 1).val < win1_2.index t 1 * 64 + 64; rw [e1]; omega

/-- THE RESULT ARRAY after the region: the whole product of the arrays the region finds. -/
theorem result (hW : PlainDot.IsPlain dW) (c : Dev nD) :
    (dat1 V c).arrAt 2 cfg1.N = Host.dotGeneral (F := Ideal) (φ₁ := .f32) (φ₂ := .f32) dW none (V c main_v52) (V c main_arg4) :=
  (dat1 V c).arrAt_eq_of_cover 2 _ (fun t _ => flushed V hW c t) covered

end Cert.KernelIdeal.Tiles1

end
-- ==== Proof.Tiles2.lean ====
/-
  The third tiled product, with its bias: the second layer's output times the readout matrix, plus the readout bias.

  The grid has ten points.  Point t is handed rows 10000·t … 10000·t + 9999 of the left operand (all 64 columns),
  the whole 64×64 right operand and the whole 1×64 bias row, and writes back rows 10000·t … 10000·t + 9999 of the
  result.  What it writes is the block's product plus the bias row laid over every row of the block: entry (p, q) is
  the sum over the 64 columns that the whole product has at (10000·t + p, q), plus the bias's entry q — which is what
  the whole product plus the bias row laid over all 100000 rows has there.  The ten blocks tile the rows (row r lies
  in block r / 10000), so after the last point the result array is that whole array.
-/
import proofs.«161678_j87660282511747_1_alg».proof.Proof.Gen.KernelIdeal.Frame
import proofs.«161678_j87660282511747_1_alg».proof.Proof.RowBlockProduct
import Idealize.ShloMosaic.Lib.Pipeline.Value
import Idealize.ShloMosaic.Lib.ValueLayout

noncomputable section

open Idealize.ShloMosaic Idealize.ShloMosaic.TcCoe Idealize.ShloMosaic.ValueIdx Idealize.SL.Sem
open Idealize.ShloMosaic.Pipeline (Dat)

namespace Cert.KernelIdeal.Tiles2

open Cert.KernelIdeal Cert.KernelIdeal.Gen

-- the region's entry contents: any
variable (V : (c : Dev nD) → (b : Ref sig .tc) → Buf (Elt Ideal) ((c : Thread nD τ).loc b))
-- the whole product's dimension numbers: any record that contracts axis 1 of the left with axis 0 of the right
variable {dW : DotDims S100000x64 S64x64 S100000x64}

theorem zeroOffsets : (![0, 0] : Fin 2 → Nat) = fun _ => 0 := funext fun a => by fin_cases a <;> rfl

/-- The block's product has the plain dimension numbers. -/
theorem blockPlain : PlainDot.IsPlain dot_S10000x64_S64x64_S10000x64_1_0_0_1_n_n := ⟨rfl, rfl, rfl, rfl, rfl, rfl⟩

/-- The whole array the region computes: the product, plus a 1×64 row laid over all 100000 rows. -/
def affine (dW : DotDims S100000x64 S64x64 S100000x64) (X : FVec Ideal S100000x64 .f32) (W : FVec Ideal S64x64 .f32)
    (B : FVec Ideal S1x64 .f32) : FVec Ideal S100000x64 .f32 :=
  addf (Host.dotGeneral dW none X W) (broadcastInDim S100000x64 ![0, 1] bcast_S1x64_S100000x64_0_1 B)

/-- A 1×64 row laid over 100000 rows reads, at (P, q), the row's entry q. -/
theorem overRows_apply (B : FVec Ideal S1x64 .f32) (P : Fin 100000) (q : Fin 64) :
    broadcastInDim S100000x64 ![0, 1] bcast_S1x64_S100000x64_0_1 B (ix2 P q) = B (ix2 (0 : Fin 1) q) := by
  refine broadcastInDim_apply _ bcast_S1x64_S100000x64_0_1 B (ix2 P q) (ix2 (0 : Fin 1) q) fun ax => ?_
  match ax with
  | ⟨0, _⟩ => rfl
  | ⟨1, _⟩ => show q.val = if (64 : ℕ) = 1 then 0 else q.val; rw [if_neg (by decide)]

/-- What a point stores, entry by entry: the whole array's entry in the row the block's row is. -/
theorem stored_entry (hW : PlainDot.IsPlain dW) (xb : FVec Ideal S10000x64 .f32) (wb : FVec Ideal S64x64 .f32) (bb : FVec Ideal S1x64 .f32)
    (X : FVec Ideal S100000x64 .f32) (W : FVec Ideal S64x64 .f32) (B : FVec Ideal S1x64 .f32) (t : Nat)
    (hx : ∀ (p : Fin 10000) (i : Fin 64) (P : Fin 100000), P.val = t * 10000 + p.val → xb (ix2 p i) = X (ix2 P i))
    (hw : ∀ (i : Fin 64) (q : Fin 64), wb (ix2 i q) = W (ix2 i q))
    (hb : ∀ q : Fin 64, bb (ix2 (0 : Fin 1) q) = B (ix2 (0 : Fin 1) q))
    (j : S10000x64.Idx) (J : S100000x64.Idx) (hJ0 : (J 0).val = t * 10000 + (j 0).val) (hJ1 : (J 1).val = (j 1).val) :
    k2_pay1 xb wb bb j = affine dW X W B J := by
  obtain ⟨p, q, rfl⟩ : ∃ (p : Fin 10000) (q : Fin 64), j = ix2 p q := ⟨j 0, j 1, eq_ix2 j⟩
  obtain ⟨P, Q, rfl⟩ : ∃ (P : Fin 100000) (Q : Fin 64), J = ix2 P Q := ⟨J 0, J 1, eq_ix2 J⟩
  obtain rfl : Q = q := Fin.ext hJ1
  refine congrArg₂ (· + ·)
    (RowBlockProduct.entry blockPlain hW none none (shapeCast S10000x64 xb shapeCasts_S10000x64_S10000x64) wb X W _ _ p P Q
      (fun i => ?_) (fun i => hw i Q)) ?_
  · rw [shapeCast_self]
    exact hx p i P hJ0
  · rw [broadcastTo_1b_ab_apply, shapeCast_self, hb Q]
    exact (overRows_apply B P Q).symm

/-- The printed index maps over the grid: the row blocks move with the point, the right operand and the bias stay. -/
theorem indexMaps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left operand's block at point t is rows 10000·t … of the array the region finds. -/
theorem leftBlock (c : Dev nD) (t : Fin cfg2.N) (p : Fin 10000) (i : Fin 64) (P : Fin 100000) (hP : P.val = t.val * 10000 + p.val) :
    (iblk2 V c 0 t : FVec Ideal S10000x64 .f32) (ix2 p i) = (V c main_v69 : FVec Ideal S100000x64 .f32) (ix2 P i) := by
  obtain ⟨e0, e1, -⟩ := indexMaps t
  unfold iblk2
  rw [View.read_apply]
  show V c main_v69 _ = V c main_v69 _
  congr 1
  funext a
  apply Fin.ext
  match a with
  | ⟨0, _⟩ => show win2_0.index t 0 * 10000 + 1 * (p : Nat) = (P : Nat); rw [e0, hP]; omega
  | ⟨1, _⟩ => show win2_0.index t 1 * 64 + 1 * (i : Nat) = (i : Nat); rw [e1]; omega

/-- The right operand's block at every point is the whole array. -/
theorem rightBlock (c : Dev nD) (t : Fin cfg2.N) (i : Fin 64) (q : Fin 64) :
    (iblk2 V c 1 t : FVec Ideal S64x64 .f32) (ix2 i q) = (V c main_arg6 : FVec Ideal S64x64 .f32) (ix2 i q) := by
  obtain ⟨-, -, e0, e1, -⟩ := indexMaps t
  unfold iblk2
  rw [View.read_apply]
  show V c main_arg6 _ = V c main_arg6 _
  congr 1
  funext a
  apply Fin.ext
  match a with
  | ⟨0, _⟩ => show win2_1.index t 0 * 64 + 1 * (i : Nat) = (i : Nat); rw [e0]; omega
  | ⟨1, _⟩ => show win2_1.index t 1 * 64 + 1 * (q : Nat) = (q : Nat); rw [e1]; omega

/-- The bias's block at every point is the whole row. -/
theorem biasBlock (c : Dev nD) (t : Fin cfg2.N) (q : Fin 64) :
    (iblk2 V c 2 t : FVec Ideal S1x64 .f32) (ix2 (0 : Fin 1) q) = (V c main_v70 : FVec Ideal S1x64 .f32) (ix2 (0 : Fin 1) q) := by
  obtain ⟨-, -, -, -, e0, e1, -⟩ := indexMaps t
  unfold iblk2
  rw [View.read_apply]
  show V c main_v70 _ = V c main_v70 _
  congr 1
  funext a
  apply Fin.ext
  match a with
  | ⟨0, _⟩ => show win2_2.index t 0 * 1 + 1 * ((0 : Fin 1) : Nat) = ((0 : Fin 1) : Nat); rw [e0]; rfl
  | ⟨1, _⟩ => show win2_2.index t 1 * 64 + 1 * (q : Nat) = (q : Nat); rw [e1]; omega

/-- WHAT POINT t WRITES BACK is block t of the whole array of the arrays the region finds. -/
theorem flushed (hW : PlainDot.IsPlain dW) (c : Dev nD) (t : Fin cfg2.N) :
    (dat2 V c).flushed 3 t = ((cfg2.win 3).blk t).view.read (Elt Ideal) (affine dW (V c main_v69) (V c main_arg6) (V c main_v70)) := by
  show (cfg2.win 3).cut (grid2.coords t) ((dat2 V c).after 3 t) = _
  rw [after2_3]
  unfold out2_3
  rw [View.canon_unit_zero zeroOffsets]
  simp only [View.ld_unit_zero (S := S10000x64) zeroOffsets, View.ld_unit_zero (S := S64x64) zeroOffsets, View.ld_unit_zero (S := S1x64) zeroOffsets]
  obtain ⟨-, -, -, -, -, -, e0, e1⟩ := indexMaps t
  funext j
  refine stored_entry hW (iblk2 V c 0 t) (iblk2 V c 1 t) (iblk2 V c 2 t) (V c main_v69) (V c main_arg6) (V c main_v70) t.val
    (fun p i P hP => leftBlock V c t p i P hP) (fun i q => rightBlock V c t i q) (fun q => biasBlock V c t q) j (((cfg2.win 3).blk t).view.emb j) ?_ ?_
  · show win2_3.index t 0 * 10000 + 1 * (j 0).val = t.val * 10000 + (j 0).val; rw [e0]; omega
  · show win2_3.index t 1 * 64 + 1 * (j 1).val = (j 1).val; rw [e1]; omega

/-- An index of the result array is in point t's block iff each coordinate is in the block's range on its axis. -/
theorem mem_block (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v71).slice (win2_3.rect t)).set ↔ _
  rw [View.set_slice_whole, Rect.mem_set_unit]
  exact Iff.rfl

/-- Every row lies in the block of the point numbered by the row's ten-thousands. -/
theorem covered (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨-, -, -, -, -, -, e0, e1⟩ := indexMaps t
  refine ⟨t, flush2_3 t, ?_⟩
  rw [mem_block]
  intro a
  match a with
  | ⟨0, _⟩ => show win2_3.index t 0 * 10000 ≤ (i 0).val ∧ (i 0).val < win2_3.index t 0 * 10000 + 10000; rw [e0]; show (i 0).val / 10000 * 10000 ≤ (i 0).val ∧ (i 0).val < (i 0).val / 10000 * 10000 + 10000; omega
  | ⟨1, _⟩ => show win2_3.index t 1 * 64 ≤ (i 1).val ∧ (i 1).val < win2_3.index t 1 * 64 + 64; rw [e1]; omega

/-- THE RESULT ARRAY after the region: the whole product of the arrays the region finds, plus the bias on every row. -/
theorem result (hW : PlainDot.IsPlain dW) (c : Dev nD) :
    (dat2 V c).arrAt 3 cfg2.N = affine dW (V c main_v69) (V c main_arg6) (V c main_v70) :=
  (dat2 V c).arrAt_eq_of_cover 3 _ (fun t _ => flushed V hW c t) covered

end Cert.KernelIdeal.Tiles2

end
-- ==== Proof.HostFold.lean ====
/-
  Reading a stretch of host operations back as one term.

  The contents after a list of operations are a fold: each operation rewrites the buffer it writes and leaves the
  rest.  `host_fold` reads such a fold at one buffer as the operations' functions applied to the contents before the
  stretch: one simplification pass for the whole chain (every shared intermediate result visited once), then the same
  rewriting result by result for what that pass cannot reach, the operands inside a concatenate's list of pieces,
  and last the typed-reference wrappers an inlined callee's operations carry, which are identities.
-/
import Idealize.ShloMosaic.Lib.StableHlo.Run

open Idealize.ShloMosaic Idealize.ShloMosaic.StableHlo

/-- The fold's remaining results, one rewrite at a time: an operation read at its own result buffer is its function
    of its operands, at any other buffer it is what was there before. -/
macro "fold_rest" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

/-- A host stretch's fold at one buffer, as a term over the contents before the stretch. -/
macro "host_fold" : tactic =>
  `(tactic| (after_results_simp
             fold_rest
             try simp only [StableHlo.TRef.ofBuf, StableHlo.TRef.toBuf, cast_eq]))
-- ==== Proof.BeforeFirstProduct.lean ====
/-
  What the first tiled product finds.

  Before the first product the program has only prepared the graph: the edges' sources and targets with the loops
  appended, the degrees, their inverse square roots and the edges' weights — all functions of the edge array alone —
  and it has written none of the eight arguments.  So when the first product starts, the buffers it and the later
  stretches read hold: the sources, the targets and the weights of the network's definition, and the arguments as
  launched.
-/
import proofs.«161678_j87660282511747_1_alg».proof.Proof.Gen.KernelIdeal.Frame
import proofs.«161678_j87660282511747_1_alg».proof.Proof.GraphNet
import proofs.«161678_j87660282511747_1_alg».proof.Proof.HostFold

set_option maxRecDepth 16384

noncomputable section

namespace Cert.KernelIdeal.Stages

open Cert.KernelIdeal Cert.KernelIdeal.Gen Cert.ReferenceIdeal.Net
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The edges' sources. -/
theorem sources_ready (c : Dev nD) :
    W3 m ρ c (Proc.devRef .tc main_v3) = sources (m ((c : Thread nD τ).loc main_arg1)) := by
  dsimp only [W3, W2, W1, hostOps0, hostOps0_1, hostOps0_2]
  host_fold <;> rfl

/-- The edges' targets. -/
theorem targets_ready (c : Dev nD) :
    W3 m ρ c (Proc.devRef .tc main_v6) = targets (m ((c : Thread nD τ).loc main_arg1)) := by
  dsimp only [W3, W2, W1, hostOps0, hostOps0_1, hostOps0_2]
  host_fold <;> rfl

set_option maxHeartbeats 4000000 in
/-- The edges' weights. -/
theorem weights_ready (c : Dev nD) :
    W3 m ρ c (Proc.devRef .tc main_v34) = edgeWeight (F := F) (m ((c : Thread nD τ).loc main_arg1)) := by
  dsimp only [W3, W2, W1, hostOps0, hostOps0_1, hostOps0_2]
  host_fold <;> rfl

/-- The node features, as launched. -/
theorem arg0_ready (c : Dev nD) : W3 m ρ c (Proc.devRef .tc main_arg0) = m ((c : Thread nD τ).loc main_arg0) := by
  dsimp only [W3, W2, W1, hostOps0, hostOps0_1, hostOps0_2]
  host_fold <;> rfl

/-- The first layer's matrix, as launched. -/
theorem arg2_ready (c : Dev nD) : W3 m ρ c (Proc.devRef .tc main_arg2) = m ((c : Thread nD τ).loc main_arg2) := by
  dsimp only [W3, W2, W1, hostOps0, hostOps0_1, hostOps0_2]
  host_fold <;> rfl

/-- The first layer's bias, as launched. -/
theorem arg3_ready (c : Dev nD) : W3 m ρ c (Proc.devRef .tc main_arg3) = m ((c : Thread nD τ).loc main_arg3) := by
  dsimp only [W3, W2, W1, hostOps0, hostOps0_1, hostOps0_2]
  host_fold <;> rfl

/-- The second layer's matrix, as launched. -/
theorem arg4_ready (c : Dev nD) : W3 m ρ c (Proc.devRef .tc main_arg4) = m ((c : Thread nD τ).loc main_arg4) := by
  dsimp only [W3, W2, W1, hostOps0, hostOps0_1, hostOps0_2]
  host_fold <;> rfl

/-- The second layer's bias, as launched. -/
theorem arg5_ready (c : Dev nD) : W3 m ρ c (Proc.devRef .tc main_arg5) = m ((c : Thread nD τ).loc main_arg5) := by
  dsimp only [W3, W2, W1, hostOps0, hostOps0_1, hostOps0_2]
  host_fold <;> rfl

/-- The readout matrix, as launched. -/
theorem arg6_ready (c : Dev nD) : W3 m ρ c (Proc.devRef .tc main_arg6) = m ((c : Thread nD τ).loc main_arg6) := by
  dsimp only [W3, W2, W1, hostOps0, hostOps0_1, hostOps0_2]
  host_fold <;> rfl

/-- The readout bias, as launched. -/
theorem arg7_ready (c : Dev nD) : W3 m ρ c (Proc.devRef .tc main_arg7) = m ((c : Thread nD τ).loc main_arg7) := by
  dsimp only [W3, W2, W1, hostOps0, hostOps0_1, hostOps0_2]
  host_fold <;> rfl

end Cert.KernelIdeal.Stages

end
-- ==== Proof.BetweenProducts.lean ====
/-
  What the host does between the tiled products.

  After a product the program sends and adds up along the edges (a gather of the product's rows at the edges'
  sources, the edges' weights multiplied in, a sum at the edges' targets, the layer's bias added): the network's
  `gatherScatter` of the product and of the sources, targets and weights prepared at the start.  After the first
  product it also takes the positive part; after the second it also lays the readout bias out as a 1×64 row.
  Neither stretch writes the sources, the targets, the weights or an argument.
-/
import proofs.«161678_j87660282511747_1_alg».proof.Proof.Gen.KernelIdeal.Frame
import proofs.«161678_j87660282511747_1_alg».proof.Proof.GraphNet
import proofs.«161678_j87660282511747_1_alg».proof.Proof.HostFold

set_option maxRecDepth 16384

noncomputable section

namespace Cert.KernelIdeal.Stages

open Cert.KernelIdeal Cert.KernelIdeal.Gen Cert.ReferenceIdeal.Net
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Between the first and the second product -/

/-- The second product's left operand: the positive part of the first layer's output. -/
theorem layer1_done (c : Dev nD) :
    W6 m ρ c (Proc.devRef .tc main_v52)
      = positivePart (gatherScatter (W4 m ρ c (Proc.devRef .tc main_v35)) (W4 m ρ c (Proc.devRef .tc main_v3))
          (W4 m ρ c (Proc.devRef .tc main_v6)) (W4 m ρ c (Proc.devRef .tc main_v34)) (W4 m ρ c (Proc.devRef .tc main_arg3))) := by
  dsimp only [W6, W5, hostOps1, hostOps1_1]
  host_fold <;> rfl

theorem sources_kept1 (c : Dev nD) : W6 m ρ c (Proc.devRef .tc main_v3) = W4 m ρ c (Proc.devRef .tc main_v3) := by
  dsimp only [W6, W5, hostOps1, hostOps1_1]
  host_fold <;> rfl

theorem targets_kept1 (c : Dev nD) : W6 m ρ c (Proc.devRef .tc main_v6) = W4 m ρ c (Proc.devRef .tc main_v6) := by
  dsimp only [W6, W5, hostOps1, hostOps1_1]
  host_fold <;> rfl

theorem weights_kept1 (c : Dev nD) : W6 m ρ c (Proc.devRef .tc main_v34) = W4 m ρ c (Proc.devRef .tc main_v34) := by
  dsimp only [W6, W5, hostOps1, hostOps1_1]
  host_fold <;> rfl

theorem arg4_kept1 (c : Dev nD) : W6 m ρ c (Proc.devRef .tc main_arg4) = W4 m ρ c (Proc.devRef .tc main_arg4) := by
  dsimp only [W6, W5, hostOps1, hostOps1_1]
  host_fold <;> rfl

theorem arg5_kept1 (c : Dev nD) : W6 m ρ c (Proc.devRef .tc main_arg5) = W4 m ρ c (Proc.devRef .tc main_arg5) := by
  dsimp only [W6, W5, hostOps1, hostOps1_1]
  host_fold <;> rfl

theorem arg6_kept1 (c : Dev nD) : W6 m ρ c (Proc.devRef .tc main_arg6) = W4 m ρ c (Proc.devRef .tc main_arg6) := by
  dsimp only [W6, W5, hostOps1, hostOps1_1]
  host_fold <;> rfl

theorem arg7_kept1 (c : Dev nD) : W6 m ρ c (Proc.devRef .tc main_arg7) = W4 m ρ c (Proc.devRef .tc main_arg7) := by
  dsimp only [W6, W5, hostOps1, hostOps1_1]
  host_fold <;> rfl

/-! ## Between the second product and the readout -/

/-- The readout's left operand: the second layer's output. -/
theorem layer2_done (c : Dev nD) :
    W8 m ρ c (Proc.devRef .tc main_v69)
      = gatherScatter (W7 m ρ c (Proc.devRef .tc main_v53)) (W7 m ρ c (Proc.devRef .tc main_v3))
          (W7 m ρ c (Proc.devRef .tc main_v6)) (W7 m ρ c (Proc.devRef .tc main_v34)) (W7 m ρ c (Proc.devRef .tc main_arg5)) := by
  dsimp only [W8, hostOps2]
  host_fold <;> rfl

/-- The readout bias as a 1×64 row. -/
theorem biasRow_done (c : Dev nD) :
    W8 m ρ c (Proc.devRef .tc main_v70) = shapeCast S1x64 (W7 m ρ c (Proc.devRef .tc main_arg7)) shapeCasts_S64_S1x64 := by
  dsimp only [W8, hostOps2]
  host_fold <;> rfl

theorem arg6_kept2 (c : Dev nD) : W8 m ρ c (Proc.devRef .tc main_arg6) = W7 m ρ c (Proc.devRef .tc main_arg6) := by
  dsimp only [W8, hostOps2]
  host_fold <;> rfl

end Cert.KernelIdeal.Stages

end
-- ==== Proof.KernelValue.lean ====
/-
  The kernel's result array is the network of its arguments.

  Boundary by boundary through the program: the first product of the node features and the first layer's matrix;
  the sending and adding up along the edges with the first bias, and its positive part; the second product; the
  sending and adding up with the second bias; the readout product with its bias.  Each tiled product is the whole
  product (the three modules on the row blocks), each host stretch the network's own function of what the stretch
  finds, and the sources, targets, weights and arguments are carried unchanged from where they were prepared to
  where they are read.  The readout bias reaches the last product as a 1×64 row made by a cast of the 64 numbers;
  laid over all rows that is the same array as the network's two-step layout of the bias.
-/
import proofs.«161678_j87660282511747_1_alg».proof.Proof.Gen.KernelIdeal.Frame
import proofs.«161678_j87660282511747_1_alg».proof.Proof.GraphNet
import proofs.«161678_j87660282511747_1_alg».proof.Proof.Tiles0
import proofs.«161678_j87660282511747_1_alg».proof.Proof.Tiles1
import proofs.«161678_j87660282511747_1_alg».proof.Proof.Tiles2
import proofs.«161678_j87660282511747_1_alg».proof.Proof.BeforeFirstProduct
import proofs.«161678_j87660282511747_1_alg».proof.Proof.BetweenProducts
import Idealize.ShloMosaic.Lib.ValueLayout

set_option maxRecDepth 16384

noncomputable section

namespace Cert.KernelIdeal.Stages

open Cert.KernelIdeal Cert.KernelIdeal.Gen Cert.ReferenceIdeal.Net
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The reference's record for the whole product has the plain dimension numbers. -/
theorem wholePlain : PlainDot.IsPlain Cert.ReferenceIdeal.dot_S100000x64_S64x64_S100000x64_1_0_0_1_n_n :=
  ⟨rfl, rfl, rfl, rfl, rfl, rfl⟩

/-! ## The arguments, named -/

abbrev feat (c : Dev nD) : FVec Ideal S100000x64 .f32 := m ((c : Thread nD τ).loc main_arg0)
abbrev edges (c : Dev nD) : IVec S2x1200000 32 := m ((c : Thread nD τ).loc main_arg1)
abbrev w1 (c : Dev nD) : FVec Ideal S64x64 .f32 := m ((c : Thread nD τ).loc main_arg2)
abbrev b1 (c : Dev nD) : FVec Ideal S64 .f32 := m ((c : Thread nD τ).loc main_arg3)
abbrev w2 (c : Dev nD) : FVec Ideal S64x64 .f32 := m ((c : Thread nD τ).loc main_arg4)
abbrev b2 (c : Dev nD) : FVec Ideal S64 .f32 := m ((c : Thread nD τ).loc main_arg5)
abbrev wl (c : Dev nD) : FVec Ideal S64x64 .f32 := m ((c : Thread nD τ).loc main_arg6)
abbrev bl (c : Dev nD) : FVec Ideal S64 .f32 := m ((c : Thread nD τ).loc main_arg7)

/-! ## After the first product -/

theorem product1 (c : Dev nD) : W4 m ρ c (Proc.devRef .tc main_v35) = product (feat m c) (w1 m c) :=
  (W4_arr m ρ c 2).trans ((Tiles0.result (V3 m ρ) wholePlain c).trans
    (congrArg₂ (Host.dotGeneral (F := Ideal) (φ₁ := .f32) (φ₂ := .f32) Cert.ReferenceIdeal.dot_S100000x64_S64x64_S100000x64_1_0_0_1_n_n none)
      (arg0_ready m ρ c) (arg2_ready m ρ c)))

theorem sources4 (c : Dev nD) : W4 m ρ c (Proc.devRef .tc main_v3) = sources (edges m c) :=
  (W4_of_ne m ρ c main_v3 (by decide)).trans (sources_ready m ρ c)
theorem targets4 (c : Dev nD) : W4 m ρ c (Proc.devRef .tc main_v6) = targets (edges m c) :=
  (W4_of_ne m ρ c main_v6 (by decide)).trans (targets_ready m ρ c)
theorem weights4 (c : Dev nD) : W4 m ρ c (Proc.devRef .tc main_v34) = edgeWeight (F := Ideal) (edges m c) :=
  (W4_of_ne m ρ c main_v34 (by decide)).trans (weights_ready m ρ c)
theorem b1_4 (c : Dev nD) : W4 m ρ c (Proc.devRef .tc main_arg3) = b1 m c :=
  (W4_of_ne m ρ c main_arg3 (by decide)).trans (arg3_ready m ρ c)
theorem w2_4 (c : Dev nD) : W4 m ρ c (Proc.devRef .tc main_arg4) = w2 m c :=
  (W4_of_ne m ρ c main_arg4 (by decide)).trans (arg4_ready m ρ c)
theorem b2_4 (c : Dev nD) : W4 m ρ c (Proc.devRef .tc main_arg5) = b2 m c :=
  (W4_of_ne m ρ c main_arg5 (by decide)).trans (arg5_ready m ρ c)
theorem wl_4 (c : Dev nD) : W4 m ρ c (Proc.devRef .tc main_arg6) = wl m c :=
  (W4_of_ne m ρ c main_arg6 (by decide)).trans (arg6_ready m ρ c)
theorem bl_4 (c : Dev nD) : W4 m ρ c (Proc.devRef .tc main_arg7) = bl m c :=
  (W4_of_ne m ρ c main_arg7 (by decide)).trans (arg7_ready m ρ c)

/-! ## Before the second product -/

/-- The first layer's output, its positive part taken. -/
abbrev hidden (c : Dev nD) : FVec Ideal S100000x64 .f32 :=
  positivePart (aggregate (product (feat m c) (w1 m c)) (edges m c) (b1 m c))

theorem hidden6 (c : Dev nD) : W6 m ρ c (Proc.devRef .tc main_v52) = hidden m c := by
  rw [layer1_done, product1, sources4, targets4, weights4, b1_4]
  rfl

/-! ## After the second product -/

theorem product2 (c : Dev nD) : W7 m ρ c (Proc.devRef .tc main_v53) = product (hidden m c) (w2 m c) :=
  (W7_arr m ρ c 2).trans ((Tiles1.result (V6 m ρ) wholePlain c).trans
    (congrArg₂ (Host.dotGeneral (F := Ideal) (φ₁ := .f32) (φ₂ := .f32) Cert.ReferenceIdeal.dot_S100000x64_S64x64_S100000x64_1_0_0_1_n_n none)
      (hidden6 m ρ c) ((arg4_kept1 m ρ c).trans (w2_4 m ρ c))))

theorem sources7 (c : Dev nD) : W7 m ρ c (Proc.devRef .tc main_v3) = sources (edges m c) :=
  (W7_of_ne m ρ c main_v3 (by decide)).trans ((sources_kept1 m ρ c).trans (sources4 m ρ c))
theorem targets7 (c : Dev nD) : W7 m ρ c (Proc.devRef .tc main_v6) = targets (edges m c) :=
  (W7_of_ne m ρ c main_v6 (by decide)).trans ((targets_kept1 m ρ c).trans (targets4 m ρ c))
theorem weights7 (c : Dev nD) : W7 m ρ c (Proc.devRef .tc main_v34) = edgeWeight (F := Ideal) (edges m c) :=
  (W7_of_ne m ρ c main_v34 (by decide)).trans ((weights_kept1 m ρ c).trans (weights4 m ρ c))
theorem b2_7 (c : Dev nD) : W7 m ρ c (Proc.devRef .tc main_arg5) = b2 m c :=
  (W7_of_ne m ρ c main_arg5 (by decide)).trans ((arg5_kept1 m ρ c).trans (b2_4 m ρ c))
theorem wl_7 (c : Dev nD) : W7 m ρ c (Proc.devRef .tc main_arg6) = wl m c :=
  (W7_of_ne m ρ c main_arg6 (by decide)).trans ((arg6_kept1 m ρ c).trans (wl_4 m ρ c))
theorem bl_7 (c : Dev nD) : W7 m ρ c (Proc.devRef .tc main_arg7) = bl m c :=
  (W7_of_ne m ρ c main_arg7 (by decide)).trans ((arg7_kept1 m ρ c).trans (bl_4 m ρ c))

/-! ## Before the readout -/

/-- The second layer's output. -/
abbrev out2 (c : Dev nD) : FVec Ideal S100000x64 .f32 :=
  aggregate (product (hidden m c) (w2 m c)) (edges m c) (b2 m c)

theorem out2_8 (c : Dev nD) : W8 m ρ c (Proc.devRef .tc main_v69) = out2 m c := by
  rw [layer2_done, product2, sources7, targets7, weights7, b2_7]
  rfl

theorem biasRow8 (c : Dev nD) :
    W8 m ρ c (Proc.devRef .tc main_v70) = shapeCast S1x64 (bl m c) shapeCasts_S64_S1x64 := by
  rw [biasRow_done, bl_7]

theorem wl_8 (c : Dev nD) : W8 m ρ c (Proc.devRef .tc main_arg6) = wl m c :=
  (arg6_kept2 m ρ c).trans (wl_7 m ρ c)

/-! ## The readout -/

/-- The 64 bias numbers cast to a 1×64 row and laid over all rows are the network's layout of the bias: both
    read, at (P, q), the bias's entry q. -/
theorem biasOverRows (b : FVec Ideal S64 .f32) :
    (broadcastInDim S100000x64 ![0, 1] bcast_S1x64_S100000x64_0_1 (shapeCast S1x64 b shapeCasts_S64_S1x64) : FVec Ideal S100000x64 .f32)
      = everyRow b := by
  funext J
  obtain ⟨P, q, rfl⟩ : ∃ (P : Fin 100000) (q : Fin 64), J = ix2 P q := ⟨J 0, J 1, eq_ix2 J⟩
  rw [Tiles2.overRows_apply, shapeCast_a_1a_apply]
  unfold everyRow
  refine ((Tiles2.overRows_apply _ P q).trans ?_).symm
  refine broadcastInDim_apply _ _ b (ix2 (0 : Fin 1) q) (ix1 q) fun a => ?_
  match a with
  | ⟨0, _⟩ => show q.val = if (64 : ℕ) = 1 then 0 else q.val; rw [if_neg (by decide)]

/-- THE RESULT ARRAY after the last region is the network of the arguments as launched. -/
theorem result_value (c : Dev nD) :
    W9 m ρ c (Proc.devRef .tc main_v71)
      = network (feat m c) (edges m c) (w1 m c) (b1 m c) (w2 m c) (b2 m c) (wl m c) (bl m c) := by
  refine (W9_arr m ρ c 3).trans ((Tiles2.result (V8 m ρ) wholePlain c).trans ?_)
  show Tiles2.affine _ (W8 m ρ c (Proc.devRef .tc main_v69)) (W8 m ρ c (Proc.devRef .tc main_arg6)) (W8 m ρ c (Proc.devRef .tc main_v70)) = _
  rw [out2_8, wl_8, biasRow8]
  unfold Tiles2.affine
  rw [biasOverRows]
  rfl

end Cert.KernelIdeal.Stages

end
-- ==== Proof.ReferenceValue.lean ====
/-
  The reference's result is the network of its arguments.

  The reference program's run ends with its result buffer at one composed term of the arguments.  That term is the
  network's definition with every named function written out: the same operations in the same order, the graph's
  preparation (sources, targets, degrees, weights) repeated wherever it is used.  So the two are equal by unfolding
  the names.  The comparison is made for an arbitrary float family, where it is a comparison of texts.
-/
import proofs.«161678_j87660282511747_1_alg».proof.Proof.ReferenceRun
import proofs.«161678_j87660282511747_1_alg».proof.Proof.GraphNet

noncomputable section

namespace Cert.ReferenceIdeal.Net

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
/-- The run's composed term is the network of the launch contents of the eight arguments. -/
theorem reference_is_network (m : (ℓ : Loc nD τ sig) → Buf (Elt F) ℓ) (c : Dev nD) :
    res_main_v101 (F := F) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold res_main_v101
  rfl

end Cert.ReferenceIdeal.Net

end
-- ==== Proof.lean ====
/-
  A two-layer graph convolution network over 100000 nodes with 64 features, computed two ways.

  Both programs prepare the graph from the edge array (sources and targets with a loop added at every node, the
  degrees, their inverse square roots, a weight per edge), multiply the node features by the first layer's matrix,
  send and add up along the edges and add a bias, take the positive part, do the same with the second layer, and
  finish with a product by the readout matrix plus a bias.  The reference forms the three products whole on the
  host.  The kernel forms each in ten blocks of 10000 rows, on operands first narrowed to a shorter float format,
  each block into a zero accumulator, and computes the edges' weights once where the reference computes them in
  each layer.  On the extended reals the narrowing is the identity and an entry of a block's product is the same
  sum over the 64 columns as the whole product's entry in that row, so the two programs are one function of the
  eight arguments, `Cert.ReferenceIdeal.Net.network`; no arithmetic law beyond that is used, and the inputs'
  finiteness is not needed.

  The kernel's and its idealization's frames are the generated ones; the reference's frame is its run with the
  result dropped; the ideal pass rewrote nothing, so the idealization claim is empty.  For the value claim the
  kernel's run names its result array at the contents after the last region (`Proof/KernelRun.lean`), which
  `Proof/KernelValue.lean` shows to be the network of the arguments; the reference's run ends at its composed
  term (`Proof/ReferenceRun.lean`), which is the network by unfolding (`Proof/ReferenceValue.lean`).
-/
import proofs.«161678_j87660282511747_1_alg».proof.Defs
import proofs.«161678_j87660282511747_1_alg».proof.Proof.Gen.Kernel
import proofs.«161678_j87660282511747_1_alg».proof.Proof.Gen.Kernel.Skeleton
import proofs.«161678_j87660282511747_1_alg».proof.Proof.Gen.Kernel.Launch
import proofs.«161678_j87660282511747_1_alg».proof.Proof.Gen.Kernel.Points
import proofs.«161678_j87660282511747_1_alg».proof.Proof.Gen.Kernel.Frame
import proofs.«161678_j87660282511747_1_alg».proof.Proof.Gen.KernelIdeal
import proofs.«161678_j87660282511747_1_alg».proof.Proof.Gen.KernelIdeal.Skeleton
import proofs.«161678_j87660282511747_1_alg».proof.Proof.Gen.KernelIdeal.Launch
import proofs.«161678_j87660282511747_1_alg».proof.Proof.Gen.KernelIdeal.Points
import proofs.«161678_j87660282511747_1_alg».proof.Proof.Gen.KernelIdeal.Frame
import proofs.«161678_j87660282511747_1_alg».proof.Proof.Gen.ReferenceIdeal
import proofs.«161678_j87660282511747_1_alg».proof.Proof.Gen.Pre_finite_inputs
import proofs.«161678_j87660282511747_1_alg».proof.Proof.KernelRun
import proofs.«161678_j87660282511747_1_alg».proof.Proof.KernelValue
import proofs.«161678_j87660282511747_1_alg».proof.Proof.ReferenceRun
import proofs.«161678_j87660282511747_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the network of the arguments in their result arrays: the kernel's last region leaves it
    there (the three tiled products being the whole products), the reference's composed term is it, and the two
    memories agree on the arguments. -/
theorem algebraic : Cert.algebraic_KernelIdeal_ReferenceIdeal := by
  intro m ρ m' ρ' _ hagree
  refine ⟨fun c => Cert.ReferenceIdeal.Net.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Stages.result_value m ρ c), (h c).2⟩)
      (Cert.KernelIdeal.GenP.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7⟩ := hagree c
    rw [Cert.ReferenceIdeal.Net.reference_is_network, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
